-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S128 .f32) (main_arg7 : FVec F S128x3 .f32) (main_arg8 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg7
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x3 .f32) (main_arg8 : FVec F S3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50176x128 : Shape := ⟨2, ![50176, 128]⟩
abbrev S3584x128 : Shape := ⟨2, ![3584, 128]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 124
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S_, .f32⟩
  | .hbm, ⟨47, _⟩ => ⟨S50176x128, .f32⟩
  | .hbm, ⟨48, _⟩ => ⟨S_, .i32⟩
  | .hbm, ⟨49, _⟩ => ⟨S_, .f32⟩
  | .hbm, ⟨50, _⟩ => ⟨S128x128, .f32⟩
  | .hbm, ⟨51, _⟩ => ⟨S50176x128, .bf16⟩
  | .hbm, ⟨52, _⟩ => ⟨S50000x128, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .bf16⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S_, .f32⟩
  | .hbm, ⟨78, _⟩ => ⟨S50176x128, .f32⟩
  | .hbm, ⟨79, _⟩ => ⟨S50176x128, .bf16⟩
  | .hbm, ⟨80, _⟩ => ⟨S50000x128, .bf16⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .bf16⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S64x128, .f32⟩
  | .hbm, ⟨106, _⟩ => ⟨S50000x1, .i32⟩
  | .hbm, ⟨107, _⟩ => ⟨S64x128, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S64, .f32⟩
  | .hbm, ⟨112, _⟩ => ⟨S50000x1, .i32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x128, .f32⟩
  | .hbm, ⟨119, _⟩ => ⟨S64x128, .f32⟩
  | .hbm, ⟨120, _⟩ => ⟨S64x3, .f32⟩
  | .hbm, ⟨121, _⟩ => ⟨S1x3, .f32⟩
  | .hbm, ⟨122, _⟩ => ⟨S64x3, .f32⟩
  | .hbm, ⟨123, _⟩ => ⟨S64x3, .f32⟩
  | .local _ .vmem, ⟨0, _⟩ => ⟨S3584x128, .f32⟩
  | .local _ .vmem, ⟨1, _⟩ => ⟨S3584x128, .f32⟩
  | .local _ .vmem, ⟨2, _⟩ => ⟨S128x128, .f32⟩
  | .local _ .vmem, ⟨3, _⟩ => ⟨S3584x128, .bf16⟩
  | .local _ .vmem, ⟨4, _⟩ => ⟨S3584x128, .bf16⟩
  | .local _ .vmem, ⟨5, _⟩ => ⟨S3584x128, .f32⟩
  | .local _ .vmem, ⟨6, _⟩ => ⟨S3584x128, .f32⟩
  | .local _ .vmem, ⟨7, _⟩ => ⟨S128x128, .f32⟩
  | .local _ .vmem, ⟨8, _⟩ => ⟨S3584x128, .bf16⟩
  | .local _ .vmem, ⟨9, _⟩ => ⟨S3584x128, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_call0_v0 : Ref sig .tc := ⟨.hbm, 46, rfl⟩
abbrev main_v29 : Ref sig .tc := ⟨.hbm, 47, rfl⟩
abbrev main_c_6 : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_c_10 : Ref sig .tc := ⟨.hbm, 76, rfl⟩
abbrev main_call3_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call4_cst : Ref sig .tc := ⟨.hbm, 101, rfl⟩
abbrev main_call4_v0 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3584x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3584x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3584x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S50000x64_S50176x128_01760_0640 : S50000x64.Pads (![0, 0] : Fin 2 → Nat) ![176, 64] ![0, 0] S50176x128
  h_S_ : 0 < S_.numel
  pads_S64x128_S128x128_0640_000 : S64x128.Pads (![0, 0] : Fin 2 → Nat) ![64, 0] ![0, 0] S128x128
  inb_S3584x128_S3584x128_0_0 : ∀ a, (![0, 0] : Fin 2 → Nat) a + S3584x128.size a ≤ S3584x128.size a
  h_S3584x128 : 0 < S3584x128.numel
  shapeCasts_S3584x128_S3584x128 : S3584x128.ShapeCasts S3584x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S3584x128_S3584x128_0_0 : (Rect.unit (s := S3584x128) ![0, 0] S3584x128.size inb_S3584x128_S3584x128_0_0).PackedRows (EltTy.packing .bf16)
  slices_S50176x128_S50000x128_0_0 : S50176x128.Slices ![0, 0] S50000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  pads_S50000x128_S50176x128_01760_000 : S50000x128.Pads (![0, 0] : Fin 2 → Nat) ![176, 0] ![0, 0] S50176x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S3584x128_S128x128_S3584x128_1_0_0_1_n_n_wf : DotDims.WF S3584x128 S128x128 S3584x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x3_S64x3_1_0_0_1_n_n_wf : DotDims.WF S64x128 S128x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3584x128.size a ≤ S50176x128.size a
  hwx0_0 : ∀ i : grid0.Coords, EltTy.bits .f32 = 32 ∨ (Rect.block (s := S50176x128) S3584x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3584x128.size a ≤ S50176x128.size a
  hwx0_2 : ∀ i : grid0.Coords, EltTy.bits .bf16 = 32 ∨ (Rect.block (s := S50176x128) S3584x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3584x128.size a ≤ S50176x128.size a
  hwx1_0 : ∀ i : grid1.Coords, EltTy.bits .f32 = 32 ∨ (Rect.block (s := S50176x128) S3584x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3584x128.size a ≤ S50176x128.size a
  hwx1_2 : ∀ i : grid1.Coords, EltTy.bits .bf16 = 32 ∨ (Rect.block (s := S50176x128) S3584x128.size (cc1_transform_2 i) (hinb1_2 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S3584x128_S128x128_S3584x128_1_0_0_1_n_n : DotDims S3584x128 S128x128 S3584x128 where
  lhsContracting := [1]
  rhsContracting := [0]
  lhsNonContracting := [0]
  rhsNonContracting := [1]
  lhsBatch := []
  rhsBatch := []
  wf := dot_S3584x128_S128x128_S3584x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

abbrev win0_0 : Pipeline.Window sig grid0 :=
  Pipeline.Window.ofSpec (Memref.whole main_v29) S3584x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S3584x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S3584x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S3584x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S64x128, .f32⟩
  | .hbm, ⟨93, _⟩ => ⟨S50000x1, .i32⟩
  | .hbm, ⟨94, _⟩ => ⟨S64x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S64, .f32⟩
  | .hbm, ⟨99, _⟩ => ⟨S50000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x128, .f32⟩
  | .hbm, ⟨106, _⟩ => ⟨S64x128, .f32⟩
  | .hbm, ⟨107, _⟩ => ⟨S64x3, .f32⟩
  | .hbm, ⟨108, _⟩ => ⟨S1x3, .f32⟩
  | .hbm, ⟨109, _⟩ => ⟨S64x3, .f32⟩
  | .hbm, ⟨110, _⟩ => ⟨S64x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x3_S64x3_1_0_0_1_n_n_wf : DotDims.WF S64x128 S128x3 S64x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.BlockProduct.lean ====
/-
  One block of the per-node linear map. The kernel body loads a block of 3584 rows of the (padded) node features and the
  whole 128 x 128 weight matrix, rounds both to bf16, multiplies them on the matrix unit into a zero accumulator and
  rounds the product to bf16. Over the extended reals a change of float format is the identity and the product into zero
  is the plain sum, so the stored block is, entry by entry,
      (row r, column q)  |->  sum over k < 128 of  x[r, k] * w[k, q].
  Both kernel functions (the two layers' calls) have this one body.
-/
import proofs.«408486_j50087908606622_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.SL.Sem

/-! ## The product's operand indices, axis by axis -/

theorem lhs_axis0 (i : S3584x128.Idx) (q : dot_S3584x128_S128x128_S3584x128_1_0_0_1_n_n.contr.Idx) :
    (dot_S3584x128_S128x128_S3584x128_1_0_0_1_n_n.lhsIdx i q 0).val = (i 0).val := by
  unfold DotDims.lhsIdx
  rw [dif_neg (show ¬(0 : Fin S3584x128.rank) ∈ dot_S3584x128_S128x128_S3584x128_1_0_0_1_n_n.lhsBatch by decide), dif_pos (show (0 : Fin S3584x128.rank) ∈ dot_S3584x128_S128x128_S3584x128_1_0_0_1_n_n.lhsNonContracting by decide)]
  rfl
theorem lhs_axis1 (i : S3584x128.Idx) (q : dot_S3584x128_S128x128_S3584x128_1_0_0_1_n_n.contr.Idx) :
    (dot_S3584x128_S128x128_S3584x128_1_0_0_1_n_n.lhsIdx i q 1).val = (q ⟨0, by decide⟩).val :=
  dot_S3584x128_S128x128_S3584x128_1_0_0_1_n_n.lhsIdx_val_of_single rfl i q
theorem rhs_axis0 (i : S3584x128.Idx) (q : dot_S3584x128_S128x128_S3584x128_1_0_0_1_n_n.contr.Idx) :
    (dot_S3584x128_S128x128_S3584x128_1_0_0_1_n_n.rhsIdx i q 0).val = (q ⟨0, by decide⟩).val :=
  dot_S3584x128_S128x128_S3584x128_1_0_0_1_n_n.rhsIdx_val_of_single rfl i q
theorem rhs_axis1 (i : S3584x128.Idx) (q : dot_S3584x128_S128x128_S3584x128_1_0_0_1_n_n.contr.Idx) :
    (dot_S3584x128_S128x128_S3584x128_1_0_0_1_n_n.rhsIdx i q 1).val = (i 1).val := by
  unfold DotDims.rhsIdx
  rw [dif_neg (show ¬(1 : Fin S128x128.rank) ∈ dot_S3584x128_S128x128_S3584x128_1_0_0_1_n_n.rhsBatch by decide), dif_pos (show (1 : Fin S128x128.rank) ∈ dot_S3584x128_S128x128_S3584x128_1_0_0_1_n_n.rhsNonContracting by decide)]
  rfl

/-- Entry (row of `i`, `k`) of the feature block. -/
abbrev featAt (i : S3584x128.Idx) (k : Fin 128) : S3584x128.Idx := fun a => match a with
  | ⟨0, _⟩ => ⟨(i 0).val, (i 0).isLt⟩
  | ⟨1, _⟩ => ⟨k.val, k.isLt⟩
/-- Entry (`k`, column of `i`) of the weight matrix. -/
abbrev weightAt (i : S3584x128.Idx) (k : Fin 128) : S128x128.Idx := fun a => match a with
  | ⟨0, _⟩ => ⟨k.val, k.isLt⟩
  | ⟨1, _⟩ => ⟨(i 1).val, (i 1).isLt⟩

/-- The matrix unit's product of two blocks into the zero accumulator, read at an entry: the plain sum. -/
theorem product_apply (a : FVec Ideal S3584x128 .bf16) (b : FVec Ideal S128x128 .bf16) (i : S3584x128.Idx) :
    matmul dot_S3584x128_S128x128_S3584x128_1_0_0_1_n_n none a b (constant S3584x128 .f32 0x00000000#32) i
      = ∑ k : Fin 128, a (featAt i k) * b (weightAt i k) := by
  simp only [matmul]
  rw [Ideal.matmul_constant_zero_apply, ← Equiv.sum_comp (ValueIdx.contrEquiv1 dot_S3584x128_S128x128_S3584x128_1_0_0_1_n_n 128 rfl rfl).symm]
  refine Finset.sum_congr rfl fun k _ => ?_
  have hk := ValueIdx.contrEquiv1_symm_val dot_S3584x128_S128x128_S3584x128_1_0_0_1_n_n 128 rfl rfl k
  have el : dot_S3584x128_S128x128_S3584x128_1_0_0_1_n_n.lhsIdx i ((ValueIdx.contrEquiv1 dot_S3584x128_S128x128_S3584x128_1_0_0_1_n_n 128 rfl rfl).symm k) = featAt i k := funext fun a => Fin.ext (by
    match a with
    | ⟨0, _⟩ => exact lhs_axis0 _ _
    | ⟨1, _⟩ => exact (lhs_axis1 _ _).trans hk)
  have er : dot_S3584x128_S128x128_S3584x128_1_0_0_1_n_n.rhsIdx i ((ValueIdx.contrEquiv1 dot_S3584x128_S128x128_S3584x128_1_0_0_1_n_n 128 rfl rfl).symm k) = weightAt i k := funext fun a => Fin.ext (by
    match a with
    | ⟨0, _⟩ => exact (rhs_axis0 _ _).trans hk
    | ⟨1, _⟩ => exact rhs_axis1 _ _)
  rw [el, er]

/-- The first layer's body: its stored block at an entry. -/
theorem layer1_block_apply (x : Vec Ideal S3584x128 .f32) (w : Vec Ideal S128x128 .f32) (i : S3584x128.Idx) :
    k0_pay1 (F := Ideal) x w i = ∑ k : Fin 128, x (featAt i k) * w (weightAt i k) := by
  unfold k0_pay1
  rw [shapeCast_self, shapeCast_self]
  exact product_apply x w i

/-- The second layer's body: the same. -/
theorem layer2_block_apply (x : Vec Ideal S3584x128 .f32) (w : Vec Ideal S128x128 .f32) (i : S3584x128.Idx) :
    k1_pay1 (F := Ideal) x w i = ∑ k : Fin 128, x (featAt i k) * w (weightAt i k) := by
  unfold k1_pay1
  rw [shapeCast_self]
  exact product_apply x w i

end Cert.KernelIdeal.BlockProduct

end
-- ==== Proof.WholeProduct.lean ====
/-
  The whole product of a (padded) node-feature array, 50176 rows of 128 channels, with a 128 x 128 weight matrix, as one
  function of the two arrays over the extended reals:
      (row r, column q)  |->  sum over k < 128 of  feat[r, k] * weight[k, q].
  This is what a layer's region computes block by block, and what the reference's dot product is compared with.
-/
import proofs.«408486_j50087908606622_3_alg».proof.KernelIdeal
import Idealize.ShloMosaic.PureOps.Ideal

noncomputable section

namespace Cert.KernelIdeal.WholeProduct

open Cert.KernelIdeal Idealize.ShloMosaic

/-- Entry (row of `i`, `k`) of the padded feature array. -/
abbrev rowAt (i : S50176x128.Idx) (k : Fin 128) : S50176x128.Idx := fun a => match a with
  | ⟨0, _⟩ => ⟨(i 0).val, (i 0).isLt⟩
  | ⟨1, _⟩ => ⟨k.val, k.isLt⟩
/-- Entry (`k`, column of `i`) of the weight matrix. -/
abbrev colAt (i : S50176x128.Idx) (k : Fin 128) : S128x128.Idx := fun a => match a with
  | ⟨0, _⟩ => ⟨k.val, k.isLt⟩
  | ⟨1, _⟩ => ⟨(i 1).val, (i 1).isLt⟩

/-- The whole product, entry by entry. -/
def rowsTimes (P : S50176x128.Idx → EReal) (Q : S128x128.Idx → EReal) : S50176x128.Idx → EReal :=
  fun i => ∑ k : Fin 128, P (rowAt i k) * Q (colAt i k)

theorem rowsTimes_apply (P : S50176x128.Idx → EReal) (Q : S128x128.Idx → EReal) (i : S50176x128.Idx) :
    rowsTimes P Q i = ∑ k : Fin 128, P (rowAt i k) * Q (colAt i k) := rfl

end Cert.KernelIdeal.WholeProduct

end
-- ==== Proof.RegionProduct.lean ====
/-
  What a layer's region leaves in its output array. The region walks 14 grid points; point t stages rows
  [3584 t, 3584 (t+1)) of the padded node features and the whole weight matrix, and writes back the block product of the
  two as rows [3584 t, 3584 (t+1)) of the output. The 14 row blocks tile the 50176 rows, so after the region the output
  array is the whole product
      (row r, column q)  |->  sum over k < 128 of  feat[r, k] * weight[k, q]
  of the two arrays as the region finds them.
-/
import proofs.«408486_j50087908606622_3_alg».proof.Proof.Gen.KernelIdeal.Frame
import proofs.«408486_j50087908606622_3_alg».proof.Proof.BlockProduct
import proofs.«408486_j50087908606622_3_alg».proof.Proof.WholeProduct

set_option maxRecDepth 16384

noncomputable section

namespace Cert.KernelIdeal.RegionProduct

open Cert.KernelIdeal Cert.KernelIdeal.Gen Cert.KernelIdeal.BlockProduct Cert.KernelIdeal.WholeProduct
open Idealize.ShloMosaic Idealize.ShloMosaic.TcCoe Idealize.SL.Sem
open Idealize.ShloMosaic.Pipeline (Dat Cfg Window)

theorem zero_offsets : (![0, 0] : Fin 2 → Nat) = fun _ => 0 := funext fun a => by fin_cases a <;> rfl

variable (V : (c : Dev nD) → (b : Ref sig .tc) → Buf (Elt Ideal) ((c : Thread nD τ).loc b))

/-! ## The first layer's region -/

/-- The first region's feature array (the padded node features) and weight array (the padded first weight matrix), as the
    region finds them, at their literal types. -/
abbrev feat1 (c : Dev nD) : S50176x128.Idx → EReal := V c main_v29
abbrev weight1 (c : Dev nD) : S128x128.Idx → EReal := V c main_v30

/-- The block indices of the first region's windows, decided over its 14 points: the feature window and the output
    window sit on row block `t` and column block 0; the weight window is the whole matrix. -/
theorem blocks1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem written1 (c : Dev nD) (t : Fin cfg0.N) :
    (dat0 V c).flushed 2 t = ((cfg0.win 2).blk t).view.read (Elt Ideal) (rowsTimes (V c main_v29) (V c main_v30)) := by
  show (cfg0.win 2).cut (grid0.coords t) ((dat0 V c).after 2 t) = _
  rw [after0_2]
  unfold out0_2
  rw [View.canon_unit_zero zero_offsets]
  simp only [View.ld_unit_zero (S := S3584x128) zero_offsets, View.ld_unit_zero (S := S128x128) zero_offsets]
  obtain ⟨e0, e1, e2, e3, e4, e5⟩ := blocks1 t
  funext j
  refine (layer1_block_apply (iblk0 V c 0 t) (iblk0 V c 1 t) j).trans ?_
  show ∑ k : Fin 128, feat1 V c (((cfg0.win 0).blk t).view.emb (featAt j k)) * weight1 V c (((cfg0.win 1).blk t).view.emb (weightAt j k))
    = ∑ k : Fin 128, feat1 V c (rowAt (((cfg0.win 2).blk t).view.emb j) k) * weight1 V c (colAt (((cfg0.win 2).blk t).view.emb j) k)
  refine Finset.sum_congr rfl fun k _ => ?_
  have h0 : ((cfg0.win 0).blk t).view.emb (featAt j k) = rowAt (((cfg0.win 2).blk t).view.emb j) k := by
    funext a; apply Fin.ext
    match a with
    | ⟨0, _⟩ => show win0_0.index t (0 : Fin 2) * 3584 + 1 * (j 0).val = win0_2.index t (0 : Fin 2) * 3584 + 1 * (j 0).val; omega
    | ⟨1, _⟩ => show win0_0.index t (1 : Fin 2) * 128 + 1 * k.val = k.val; omega
  have h1 : ((cfg0.win 1).blk t).view.emb (weightAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem in_block1 (t : Fin cfg0.N) (i : S50176x128.Idx) :
    i ∈ ((cfg0.win 2).blk t).view.set ↔ ∀ a : Fin 2, win0_2.index t a * S3584x128.size a ≤ (i a).val ∧ (i a).val < win0_2.index t a * S3584x128.size a + S3584x128.size a := by
  show i ∈ ((View.whole main_v31).slice (win0_2.rect t)).set ↔ _
  rw [View.set_slice_whole, Rect.mem_set_unit]
  exact Iff.rfl

/-- Row `r` of the output is written by point `r / 3584`. -/
theorem tiled1 (i : S50176x128.Idx) : ∃ t : Fin cfg0.N, (cfg0.win 2).flush t = true ∧ i ∈ ((cfg0.win 2).blk t).view.set := by
  have hi0 : (i 0).val < 50176 := (i 0).isLt
  have hi1 : (i 1).val < 128 := (i 1).isLt
  refine ⟨⟨(i 0).val / 3584, by show (i 0).val / 3584 < 14; omega⟩, flush0_2 _, ?_⟩
  rw [in_block1]
  obtain ⟨e0, e1, e2, e3, e4, e5⟩ := blocks1 ⟨(i 0).val / 3584, by show (i 0).val / 3584 < 14; omega⟩
  intro a
  match a with
  | ⟨0, _⟩ => show win0_2.index _ (0 : Fin 2) * 3584 ≤ (i 0).val ∧ (i 0).val < win0_2.index _ (0 : Fin 2) * 3584 + 3584; rw [e4]; show (i 0).val / 3584 * 3584 ≤ (i 0).val ∧ (i 0).val < (i 0).val / 3584 * 3584 + 3584; omega
  | ⟨1, _⟩ => show win0_2.index _ (1 : Fin 2) * 128 ≤ (i 1).val ∧ (i 1).val < win0_2.index _ (1 : Fin 2) * 128 + 128; rw [e5]; omega

/-- After the first layer's region its output array is the whole product of its two input arrays. -/
theorem product1 (c : Dev nD) : (dat0 V c).arrAt 2 cfg0.N = rowsTimes (V c main_v29) (V c main_v30) :=
  (dat0 V c).arrAt_eq_of_cover 2 (rowsTimes (V c main_v29) (V c main_v30)) (fun t _ => written1 V c t) tiled1

/-! ## The second layer's region -/

/-- The second region's feature array (the padded first layer) and weight array (the second weight matrix), as the region
    finds them, at their literal types. -/
abbrev feat2 (c : Dev nD) : S50176x128.Idx → EReal := V c main_v51
abbrev weight2 (c : Dev nD) : S128x128.Idx → EReal := V c main_arg5

/-- The block indices of the second region's windows, decided over its 14 points. -/
theorem blocks2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the region finds them. -/
theorem written2 (c : Dev nD) (t : Fin cfg1.N) :
    (dat1 V c).flushed 2 t = ((cfg1.win 2).blk t).view.read (Elt Ideal) (rowsTimes (V c main_v51) (V c main_arg5)) := by
  show (cfg1.win 2).cut (grid1.coords t) ((dat1 V c).after 2 t) = _
  rw [after1_2]
  unfold out1_2
  rw [View.canon_unit_zero zero_offsets]
  simp only [View.ld_unit_zero (S := S3584x128) zero_offsets, View.ld_unit_zero (S := S128x128) zero_offsets]
  obtain ⟨e0, e1, e2, e3, e4, e5⟩ := blocks2 t
  funext j
  refine (layer2_block_apply (iblk1 V c 0 t) (iblk1 V c 1 t) j).trans ?_
  show ∑ k : Fin 128, feat2 V c (((cfg1.win 0).blk t).view.emb (featAt j k)) * weight2 V c (((cfg1.win 1).blk t).view.emb (weightAt j k))
    = ∑ k : Fin 128, feat2 V c (rowAt (((cfg1.win 2).blk t).view.emb j) k) * weight2 V c (colAt (((cfg1.win 2).blk t).view.emb j) k)
  refine Finset.sum_congr rfl fun k _ => ?_
  have h0 : ((cfg1.win 0).blk t).view.emb (featAt j k) = rowAt (((cfg1.win 2).blk t).view.emb j) k := by
    funext a; apply Fin.ext
    match a with
    | ⟨0, _⟩ => show win1_0.index t (0 : Fin 2) * 3584 + 1 * (j 0).val = win1_2.index t (0 : Fin 2) * 3584 + 1 * (j 0).val; omega
    | ⟨1, _⟩ => show win1_0.index t (1 : Fin 2) * 128 + 1 * k.val = k.val; omega
  have h1 : ((cfg1.win 1).blk t).view.emb (weightAt j k) = colAt (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem in_block2 (t : Fin cfg1.N) (i : S50176x128.Idx) :
    i ∈ ((cfg1.win 2).blk t).view.set ↔ ∀ a : Fin 2, win1_2.index t a * S3584x128.size a ≤ (i a).val ∧ (i a).val < win1_2.index t a * S3584x128.size a + S3584x128.size a := by
  show i ∈ ((View.whole main_v52).slice (win1_2.rect t)).set ↔ _
  rw [View.set_slice_whole, Rect.mem_set_unit]
  exact Iff.rfl

/-- Row `r` of the output is written by point `r / 3584`. -/
theorem tiled2 (i : S50176x128.Idx) : ∃ t : Fin cfg1.N, (cfg1.win 2).flush t = true ∧ i ∈ ((cfg1.win 2).blk t).view.set := by
  have hi0 : (i 0).val < 50176 := (i 0).isLt
  have hi1 : (i 1).val < 128 := (i 1).isLt
  refine ⟨⟨(i 0).val / 3584, by show (i 0).val / 3584 < 14; omega⟩, flush1_2 _, ?_⟩
  rw [in_block2]
  obtain ⟨e0, e1, e2, e3, e4, e5⟩ := blocks2 ⟨(i 0).val / 3584, by show (i 0).val / 3584 < 14; omega⟩
  intro a
  match a with
  | ⟨0, _⟩ => show win1_2.index _ (0 : Fin 2) * 3584 ≤ (i 0).val ∧ (i 0).val < win1_2.index _ (0 : Fin 2) * 3584 + 3584; rw [e4]; show (i 0).val / 3584 * 3584 ≤ (i 0).val ∧ (i 0).val < (i 0).val / 3584 * 3584 + 3584; omega
  | ⟨1, _⟩ => show win1_2.index _ (1 : Fin 2) * 128 ≤ (i 1).val ∧ (i 1).val < win1_2.index _ (1 : Fin 2) * 128 + 128; rw [e5]; omega

/-- After the second layer's region its output array is the whole product of its two input arrays. -/
theorem product2 (c : Dev nD) : (dat1 V c).arrAt 2 cfg1.N = rowsTimes (V c main_v51) (V c main_arg5) :=
  (dat1 V c).arrAt_eq_of_cover 2 (rowsTimes (V c main_v51) (V c main_arg5)) (fun t _ => written2 V c t) tiled2

end Cert.KernelIdeal.RegionProduct

end
-- ==== Proof.Layers.lean ====
/-
  The two programs share everything but the per-node linear maps. What they share, as two functions of a linear map's
  output `h` (one row per node):

  * the graph-convolution tail `convG h src dst norm bias`: gather the rows `h[src[e]]` (a negative source index wraps
    by the node count), scale row e by `norm[e]`, add the rows up into their destination nodes `dst[e]`, add the bias to
    every node's row, and clamp below at zero;
  * the pooling head `headG h batch Wf bf`: add the nodes' rows up by graph, divide each graph's row by its node count
    (at least one), multiply by the head's weights and add its bias.

  The reference's stages are these functions of its own two dot products, by unfolding.
-/
import proofs.«408486_j50087908606622_3_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The graph-convolution tail of a layer, from its linear map's output. -/
def convG (h : (⟨S50000x128, .f32⟩ : BufTy).Contents (Elt F))
    (src dst : (⟨S850000, .i32⟩ : BufTy).Contents (Elt F)) (norm : (⟨S850000, .f32⟩ : BufTy).Contents (Elt F))
    (bias : (⟨S128, .f32⟩ : BufTy).Contents (Elt F)) : (⟨S50000x128, .f32⟩ : BufTy).Contents (Elt F) :=
  maximumf
    (addf
      (Host.scatterAdd scatter_S50000x128_S850000x1_S850000x128_1_0_0_1
        (broadcastInDim S50000x128 ![] bcast_S_S50000x128 (constant S_ .f32 0x00000000#32))
        (broadcastInDim S850000x1 ![0] bcast_S850000_S850000x1_0 dst)
        (mulf
          (Host.gather gather_S50000x128_S850000x1_S850000x128_1_0_n_n_0_1_1128 h
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
          (broadcastInDim S850000x128 ![0, 1] bcast_S850000x1_S850000x128_0_1
            (broadcastInDim S850000x1 ![0] bcast_S850000_S850000x1_0 norm))))
      (broadcastInDim S50000x128 ![0, 1] bcast_S1x128_S50000x128_0_1 (broadcastInDim S1x128 ![1] bcast_S128_S1x128_1 bias)))
    (broadcastInDim S50000x128 ![] bcast_S_S50000x128 (constant S_ .f32 0x00000000#32))

/-- The pooling head, from the second layer's output. -/
def headG (h : (⟨S50000x128, .f32⟩ : BufTy).Contents (Elt F)) (batch : (⟨S50000, .i32⟩ : BufTy).Contents (Elt F))
    (Wf : (⟨S128x3, .f32⟩ : BufTy).Contents (Elt F)) (bf : (⟨S3, .f32⟩ : BufTy).Contents (Elt F)) :
    (⟨S64x3, .f32⟩ : BufTy).Contents (Elt F) :=
  addf
    (Host.dotGeneral dot_S64x128_S128x3_S64x3_1_0_0_1_n_n none
      (Host.divf
        (Host.scatterAdd scatter_S64x128_S50000x1_S50000x128_1_0_0_1
          (broadcastInDim S64x128 ![] bcast_S_S64x128 (constant S_ .f32 0x00000000#32))
          (broadcastInDim S50000x1 ![0] bcast_S50000_S50000x1_0 batch) h)
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant S_ .f32 0x00000000#32))
                (broadcastInDim S50000x1 ![0] bcast_S50000_S50000x1_0 batch)
                (broadcastInDim S50000 ![] bcast_S_S50000 (constant S_ .f32 0x3F800000#32)))
              (broadcastInDim S64 ![] bcast_S_S64 (constant S_ .f32 0x3F800000#32))))))
      Wf)
    (broadcastInDim S64x3 ![0, 1] bcast_S1x3_S64x3_0_1 (broadcastInDim S1x3 ![1] bcast_S3_S1x3_1 bf))

section Reference

variable (x0 : (⟨S50000x64, .f32⟩ : BufTy).Contents (Elt F)) (x1 : (⟨S2x800000, .i32⟩ : BufTy).Contents (Elt F))
  (x2 : (⟨S50000, .i32⟩ : BufTy).Contents (Elt F)) (x3 : (⟨S64x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 : (⟨S128x3, .f32⟩ : BufTy).Contents (Elt F))
  (x8 : (⟨S3, .f32⟩ : BufTy).Contents (Elt F))

/-- The reference's first layer is the convolution tail of its first dot product. -/
theorem layer1_eq : val_main_v46 (F := F) x0 x1 x3 x4
    = convG (val_main_v29 (F := F) x0 x3) (val_main_v3 (F := F) x1) (val_main_v6 (F := F) x1) (val_main_v28 (F := F) x1) x4 := rfl

/-- Its second linear map is the dot product of the first layer with the second weight matrix. -/
theorem linear2_eq : val_main_v47 (F := F) x0 x1 x3 x4 x5
    = Host.dotGeneral dot_S50000x128_S128x128_S50000x128_1_0_0_1_n_n none (val_main_v46 (F := F) x0 x1 x3 x4) x5 := rfl

/-- Its second layer is the convolution tail of that. -/
theorem layer2_eq : val_main_v64 (F := F) x0 x1 x3 x4 x5 x6
    = convG (val_main_v47 (F := F) x0 x1 x3 x4 x5) (val_main_v3 (F := F) x1) (val_main_v6 (F := F) x1) (val_main_v28 (F := F) x1) x6 := rfl

/-- Its result is the pooling head of the second layer. -/
theorem result_eq : val_main_v80 (F := F) x0 x1 x2 x3 x4 x5 x6 x7 x8
    = headG (val_main_v64 (F := F) x0 x1 x3 x4 x5 x6) x2 x7 x8 := rfl

/-- The reference's result, whole: the pooling head of the second tail of the second dot product of the first tail of the
    first dot product. -/
theorem whole_eq : val_main_v80 (F := F) x0 x1 x2 x3 x4 x5 x6 x7 x8
    = headG
        (convG
          (Host.dotGeneral dot_S50000x128_S128x128_S50000x128_1_0_0_1_n_n none
            (convG (val_main_v29 (F := F) x0 x3) (val_main_v3 (F := F) x1) (val_main_v6 (F := F) x1) (val_main_v28 (F := F) x1) x4) x5)
          (val_main_v3 (F := F) x1) (val_main_v6 (F := F) x1) (val_main_v28 (F := F) x1) x6)
        x2 x7 x8 := by
  rw [result_eq, layer2_eq, linear2_eq, layer1_eq]

end Reference

end Cert.ReferenceIdeal.Layers

end
-- ==== Proof.Layout.lean ====
/-
  The layout steps only the kernel program has, as functions over the extended reals: the node features padded with zero
  rows (to 50176 nodes) and zero columns (to 128 channels), the first weight matrix padded with zero rows (to 128 input
  channels), a layer's output padded with zero rows, and the real nodes' rows cut back out of a region's output.
-/
import proofs.«408486_j50087908606622_3_alg».proof.Proof.Gen.KernelIdeal
import Idealize.ShloMosaic.PureOps.Ideal

noncomputable section

namespace Cert.KernelIdeal.Layout

open Cert.KernelIdeal Cert.KernelIdeal.Gen Idealize.ShloMosaic Idealize.SL.Sem

/-- The padding value: the integer zero converted to a float. -/
abbrev zeroPad : S_.Idx → EReal := sitofp (F := Ideal) .f32 (constantI S_ 32 0#32)

/-- It is zero. -/
theorem zeroPad_apply (j : S_.Idx) : zeroPad j = 0 := by
  show (((0#32 : BitVec 32).toInt : ℝ) : EReal) = 0
  simp

/-- The node features padded with zero rows to 50176 nodes and zero columns to 128 channels. -/
def padFeatures (X : S50000x64.Idx → EReal) : S50176x128.Idx → EReal :=
  pad S50176x128 ![0, 0] ![176, 64] ![0, 0] X zeroPad pads_S50000x64_S50176x128_01760_0640 h_S_

/-- The first weight matrix padded with zero rows to 128 input channels. -/
def padWeights (W : S64x128.Idx → EReal) : S128x128.Idx → EReal :=
  pad S128x128 ![0, 0] ![64, 0] ![0, 0] W zeroPad pads_S64x128_S128x128_0640_000 h_S_

/-- A layer's output padded with zero rows to 50176 nodes. -/
def padRows (H : S50000x128.Idx → EReal) : S50176x128.Idx → EReal :=
  pad S50176x128 ![0, 0] ![176, 0] ![0, 0] H zeroPad pads_S50000x128_S50176x128_01760_000 h_S_

/-- The real nodes' rows of a region's output. -/
def realRows (Y : S50176x128.Idx → EReal) : S50000x128.Idx → EReal :=
  extractStridedSlice S50000x128 ![0, 0] Y slices_S50176x128_S50000x128_0_0

end Cert.KernelIdeal.Layout

end
-- ==== Proof.KernelValue.lean ====
/-
  The kernel program's buffers at its segment boundaries, read back to the launch memory. @main is three stretches of host
  operations around two regions. Before the first region the host builds the edge lists with self-loops (source and
  destination indices), the symmetric normalisation of every edge, and the zero-padded node features and first weight
  matrix; the first region multiplies those two. Between the regions the host takes the real nodes' rows of the product
  through the graph-convolution tail and pads the result's rows; the second region multiplies that by the second weight
  matrix. After it the host takes the real rows through the tail again and through the pooling head.
  Each boundary's contents is the fold of the operations before it; each lemma here reads one buffer out of that fold.
-/
import proofs.«408486_j50087908606622_3_alg».proof.Proof.Gen.KernelIdeal.Frame
import proofs.«408486_j50087908606622_3_alg».proof.Proof.RegionProduct
import proofs.«408486_j50087908606622_3_alg».proof.Proof.Layers
import proofs.«408486_j50087908606622_3_alg».proof.Proof.Layout
import Idealize.ShloMosaic.Lib.StableHlo.Run

set_option maxRecDepth 16384

noncomputable section

namespace Cert.KernelIdeal.KernelValue

open Cert.KernelIdeal Cert.KernelIdeal.Gen Cert.KernelIdeal.RegionProduct Cert.KernelIdeal.WholeProduct Cert.KernelIdeal.Layout
open Idealize.ShloMosaic Idealize.ShloMosaic.TcCoe Idealize.SL.Sem Idealize.ShloMosaic.StableHlo

/-! ## A layer's tail and the pooling head in the kernel program's own spelling

The same two functions as the reference's `convG` and `headG`, spelled with the kernel program's records, and with what only
the kernel program has: the real rows are cut out of the region's bf16 output first, and the gathered rows are widened to f32. -/

section Spelling
variable {F : FTy → Type} [FloatOps F]

/-- A layer before its clamp: the gather / scale / scatter-add of the region's output rows, plus the bias. -/
def preActK (Y : (⟨S50176x128, .bf16⟩ : BufTy).Contents (Elt F)) (src dst : (⟨S850000, .i32⟩ : BufTy).Contents (Elt F))
    (nrm : (⟨S850000, .f32⟩ : BufTy).Contents (Elt F)) (bias : (⟨S128, .f32⟩ : BufTy).Contents (Elt F)) :
    (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf
        (extf .f32
          (Host.gather gather_S50000x128_S850000x1_S850000x128_1_0_n_n_0_1_1128
            (extractStridedSlice S50000x128 ![0, 0] Y slices_S50176x128_S50000x128_0_0)
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
          bitsLt_bf16_f32)
        (broadcastInDim S850000x128 ![0, 1] bcast_S850000x1_S850000x128_0_1
          (broadcastInDim S850000x1 ![0] bcast_S850000_S850000x1_0 nrm))))
    (broadcastInDim S50000x128 ![0, 1] bcast_S1x128_S50000x128_0_1 (broadcastInDim S1x128 ![1] bcast_S128_S1x128_1 bias))

/-- The clamp below at zero. -/
def reluK (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The graph-convolution tail, from a region's output array (bf16, 50176 rows). -/
def tailK (Y : (⟨S50176x128, .bf16⟩ : BufTy).Contents (Elt F)) (src dst : (⟨S850000, .i32⟩ : BufTy).Contents (Elt F))
    (nrm : (⟨S850000, .f32⟩ : BufTy).Contents (Elt F)) (bias : (⟨S128, .f32⟩ : BufTy).Contents (Elt F)) :
    (⟨S50000x128, .f32⟩ : BufTy).Contents (Elt F) :=
  reluK (preActK Y src dst nrm bias)

/-- The pooling head, from the second layer's output. -/
def headK (h : (⟨S50000x128, .f32⟩ : BufTy).Contents (Elt F)) (batch : (⟨S50000, .i32⟩ : BufTy).Contents (Elt F))
    (Wf : (⟨S128x3, .f32⟩ : BufTy).Contents (Elt F)) (bf : (⟨S3, .f32⟩ : BufTy).Contents (Elt F)) :
    (⟨S64x3, .f32⟩ : BufTy).Contents (Elt F) :=
  addf
    (Host.dotGeneral dot_S64x128_S128x3_S64x3_1_0_0_1_n_n none
      (Host.divf
        (Host.scatterAdd scatter_S64x128_S50000x1_S50000x128_1_0_0_1
          (broadcastInDim S64x128 ![] bcast_S_S64x128 (constant S_ .f32 0x00000000#32))
          (broadcastInDim S50000x1 ![0] bcast_S50000_S50000x1_0 batch) h)
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant S_ .f32 0x00000000#32))
                (broadcastInDim S50000x1 ![0] bcast_S50000_S50000x1_0 batch)
                (broadcastInDim S50000 ![] bcast_S_S50000 (constant S_ .f32 0x3F800000#32)))
              (broadcastInDim S64 ![] bcast_S_S64 (constant S_ .f32 0x3F800000#32))))))
      Wf)
    (broadcastInDim S64x3 ![0, 1] bcast_S1x3_S64x3_0_1 (broadcastInDim S1x3 ![1] bcast_S3_S1x3_1 bf))

end Spelling

/-- Over the extended reals widening a bf16 vector to f32 changes nothing. -/
theorem widen_id {s : Shape} (v : FVec Ideal s .bf16) : extf (F := Ideal) .f32 v bitsLt_bf16_f32 = v := funext fun i => rfl

/-- The two programs' dimension records are the same records. -/
theorem gather_rows_eq : gather_S50000x128_S850000x1_S850000x128_1_0_n_n_0_1_1128 = Cert.ReferenceIdeal.gather_S50000x128_S850000x1_S850000x128_1_0_n_n_0_1_1128 := rfl
theorem scatter_rows_eq : scatter_S50000x128_S850000x1_S850000x128_1_0_0_1 = Cert.ReferenceIdeal.scatter_S50000x128_S850000x1_S850000x128_1_0_0_1 := rfl
theorem scatter_pool_eq : scatter_S64x128_S50000x1_S50000x128_1_0_0_1 = Cert.ReferenceIdeal.scatter_S64x128_S50000x1_S50000x128_1_0_0_1 := rfl
theorem scatter_count_eq : scatter_S64_S50000x1_S50000_n_0_0_1 = Cert.ReferenceIdeal.scatter_S64_S50000x1_S50000_n_0_0_1 := rfl
theorem dot_head_eq : dot_S64x128_S128x3_S64x3_1_0_0_1_n_n = Cert.ReferenceIdeal.dot_S64x128_S128x3_S64x3_1_0_0_1_n_n := rfl

/-- The kernel program's tail is the shared tail of the real rows. -/
theorem tailK_eq (Y : S50176x128.Idx → EReal) (src dst : (⟨S850000, .i32⟩ : BufTy).Contents (Elt Ideal))
    (nrm : (⟨S850000, .f32⟩ : BufTy).Contents (Elt Ideal)) (bias : (⟨S128, .f32⟩ : BufTy).Contents (Elt Ideal)) :
    tailK (F := Ideal) Y src dst nrm bias = Cert.ReferenceIdeal.Layers.convG (F := Ideal) (realRows Y) src dst nrm bias := by
  unfold tailK reluK preActK
  rw [widen_id, gather_rows_eq, scatter_rows_eq]
  rfl

/-- The kernel program's head is the shared head. -/
theorem headK_eq (h : (⟨S50000x128, .f32⟩ : BufTy).Contents (Elt Ideal)) (batch : (⟨S50000, .i32⟩ : BufTy).Contents (Elt Ideal))
    (Wf : (⟨S128x3, .f32⟩ : BufTy).Contents (Elt Ideal)) (bf : (⟨S3, .f32⟩ : BufTy).Contents (Elt Ideal)) :
    headK (F := Ideal) h batch Wf bf = Cert.ReferenceIdeal.Layers.headG (F := Ideal) h batch Wf bf := by
  unfold headK
  rw [scatter_pool_eq, scatter_count_eq, dot_head_eq]
  rfl

/-- The head of equal arguments. -/
theorem headK_congr {h h' : (⟨S50000x128, .f32⟩ : BufTy).Contents (Elt Ideal)} {b b' : (⟨S50000, .i32⟩ : BufTy).Contents (Elt Ideal)}
    {w w' : (⟨S128x3, .f32⟩ : BufTy).Contents (Elt Ideal)} {f f' : (⟨S3, .f32⟩ : BufTy).Contents (Elt Ideal)}
    (hh : h = h') (hb : b = b') (hw : w = w') (hf : f = f') : headK (F := Ideal) h b w f = headK (F := Ideal) h' b' w' f' := by
  subst hh hb hw hf; rfl

/-! ## The host stretches, one at a time, from any contents `V`

Each lemma reads one buffer out of one stretch's fold from an arbitrary valuation: the stretches are cut at the two
outlined calls (the clamp and the padding), so that each read is of a few operations over opaque contents. -/

section Stretches
variable (V : Valuation τ sig (Elt Ideal))

/-- The operations after the first region up to the first layer's clamp. -/
theorem stretch_preAct1 : StableHlo.after hostOps1 V (Proc.devRef .tc main_v49)
    = preActK (F := Ideal) (V (Proc.devRef .tc main_v31)) (V (Proc.devRef .tc main_v3)) (V (Proc.devRef .tc main_v6))
        (V (Proc.devRef .tc main_v28)) (V (Proc.devRef .tc main_arg4)) := by
  after_results_simp <;> rfl
/-- The first layer's clamp. -/
theorem stretch_relu1 : StableHlo.after hostOps1_1 V (Proc.devRef .tc main_v50) = reluK (F := Ideal) (V (Proc.devRef .tc main_v49)) := by
  after_results_simp <;> rfl
/-- The padding of the first layer's rows. -/
theorem stretch_pad1 : StableHlo.after hostOps1_3 (StableHlo.after hostOps1_2 V) (Proc.devRef .tc main_v51) = padRows (V (Proc.devRef .tc main_v50)) := by
  after_results_simp <;> rfl
/-- The operations after the second region up to the second layer's clamp. -/
theorem stretch_preAct2 : StableHlo.after hostOps2 V (Proc.devRef .tc main_v70)
    = preActK (F := Ideal) (V (Proc.devRef .tc main_v52)) (V (Proc.devRef .tc main_v3)) (V (Proc.devRef .tc main_v6))
        (V (Proc.devRef .tc main_v28)) (V (Proc.devRef .tc main_arg6)) := by
  after_results_simp <;> rfl
/-- The second layer's clamp. -/
theorem stretch_relu2 : StableHlo.after hostOps2_1 V (Proc.devRef .tc main_v71) = reluK (F := Ideal) (V (Proc.devRef .tc main_v70)) := by
  after_results_simp <;> rfl
/-- The pooling head. -/
theorem stretch_head : StableHlo.after hostOps2_2 V (Proc.devRef .tc main_v87)
    = headK (F := Ideal) (V (Proc.devRef .tc main_v71)) (V (Proc.devRef .tc main_arg2)) (V (Proc.devRef .tc main_arg7)) (V (Proc.devRef .tc main_arg8)) := by
  after_results_simp <;> rfl

end Stretches

-- the boundary contents are read through their lemmas only, never opened
attribute [local irreducible] W5 W10

variable (m : (ℓ : Loc nD τ sig) → Buf (Elt Ideal) ℓ) (ρ : Dev nD → PrngReg) (c : Dev nD)

/-! ## At the first region's entry -/

/-- Reads a buffer at the first region's entry out of the fold of the host operations before it. -/
local macro "read_entry1" : tactic => `(tactic| (
  show StableHlo.after hostOps0_3 (StableHlo.after hostOps0_2 (StableHlo.after hostOps0_1 (StableHlo.after hostOps0 (W0 _ _ _)))) _ = _
  after_results_simp <;> rfl))

theorem entry1_src : W4 m ρ c (Proc.devRef .tc main_v3) = Cert.ReferenceIdeal.Read.val_main_v3 (F := Ideal) (m ((c : Thread nD τ).loc main_arg1)) := by
  read_entry1
theorem entry1_dst : W4 m ρ c (Proc.devRef .tc main_v6) = Cert.ReferenceIdeal.Read.val_main_v6 (F := Ideal) (m ((c : Thread nD τ).loc main_arg1)) := by
  read_entry1
theorem entry1_norm : W4 m ρ c (Proc.devRef .tc main_v28) = Cert.ReferenceIdeal.Read.val_main_v28 (F := Ideal) (m ((c : Thread nD τ).loc main_arg1)) := by
  read_entry1
theorem entry1_features : W4 m ρ c (Proc.devRef .tc main_v29) = padFeatures (m ((c : Thread nD τ).loc main_arg0)) := by
  read_entry1
theorem entry1_weights : W4 m ρ c (Proc.devRef .tc main_v30) = padWeights (m ((c : Thread nD τ).loc main_arg3)) := by
  read_entry1
theorem entry1_arg2 : W4 m ρ c (Proc.devRef .tc main_arg2) = m ((c : Thread nD τ).loc main_arg2) := by read_entry1
theorem entry1_arg4 : W4 m ρ c (Proc.devRef .tc main_arg4) = m ((c : Thread nD τ).loc main_arg4) := by read_entry1
theorem entry1_arg5 : W4 m ρ c (Proc.devRef .tc main_arg5) = m ((c : Thread nD τ).loc main_arg5) := by read_entry1
theorem entry1_arg6 : W4 m ρ c (Proc.devRef .tc main_arg6) = m ((c : Thread nD τ).loc main_arg6) := by read_entry1
theorem entry1_arg7 : W4 m ρ c (Proc.devRef .tc main_arg7) = m ((c : Thread nD τ).loc main_arg7) := by read_entry1
theorem entry1_arg8 : W4 m ρ c (Proc.devRef .tc main_arg8) = m ((c : Thread nD τ).loc main_arg8) := by read_entry1

/-! ## What the first region leaves -/

theorem exit1_product : W5 m ρ c (Proc.devRef .tc main_v31)
    = rowsTimes (padFeatures (m ((c : Thread nD τ).loc main_arg0))) (padWeights (m ((c : Thread nD τ).loc main_arg3))) := by
  refine (W5_arr m ρ c 2).trans ?_
  refine (product1 (V4 m ρ) c).trans ?_
  exact congrArg₂ rowsTimes (entry1_features m ρ c) (entry1_weights m ρ c)

/-! ## At the second region's entry -/

/-- Reads a buffer at the second region's entry out of the fold of the host operations between the regions, down to the
    first region's exit contents. -/
local macro "read_entry2" : tactic => `(tactic| (
  show StableHlo.after hostOps1_3 (StableHlo.after hostOps1_2 (StableHlo.after hostOps1_1 (StableHlo.after hostOps1 (W5 _ _ _)))) _ = _
  after_results_simp <;> rfl))

/-- The second region's features: the first region's output through the tail, padded with zero rows — over the first
    region's exit contents. -/
theorem entry2_features_of_exit1 : W9 m ρ c (Proc.devRef .tc main_v51)
    = padRows (tailK (F := Ideal) (W5 m ρ c (Proc.devRef .tc main_v31)) (W5 m ρ c (Proc.devRef .tc main_v3))
        (W5 m ρ c (Proc.devRef .tc main_v6)) (W5 m ρ c (Proc.devRef .tc main_v28)) (W5 m ρ c (Proc.devRef .tc main_arg4))) :=
  (stretch_pad1 (W7 m ρ c)).trans (congrArg padRows
    ((stretch_relu1 (W6 m ρ c)).trans (congrArg (reluK (F := Ideal)) (stretch_preAct1 (W5 m ρ c)))))

theorem keep2_src : W9 m ρ c (Proc.devRef .tc main_v3) = W5 m ρ c (Proc.devRef .tc main_v3) := by read_entry2
theorem keep2_dst : W9 m ρ c (Proc.devRef .tc main_v6) = W5 m ρ c (Proc.devRef .tc main_v6) := by read_entry2
theorem keep2_norm : W9 m ρ c (Proc.devRef .tc main_v28) = W5 m ρ c (Proc.devRef .tc main_v28) := by read_entry2
theorem keep2_arg2 : W9 m ρ c (Proc.devRef .tc main_arg2) = W5 m ρ c (Proc.devRef .tc main_arg2) := by read_entry2
theorem keep2_arg5 : W9 m ρ c (Proc.devRef .tc main_arg5) = W5 m ρ c (Proc.devRef .tc main_arg5) := by read_entry2
theorem keep2_arg6 : W9 m ρ c (Proc.devRef .tc main_arg6) = W5 m ρ c (Proc.devRef .tc main_arg6) := by read_entry2
theorem keep2_arg7 : W9 m ρ c (Proc.devRef .tc main_arg7) = W5 m ρ c (Proc.devRef .tc main_arg7) := by read_entry2
theorem keep2_arg8 : W9 m ρ c (Proc.devRef .tc main_arg8) = W5 m ρ c (Proc.devRef .tc main_arg8) := by read_entry2

/-- The edge lists, the normalisation and the arguments at the first region's exit: the first region writes only its own
    output array. -/
theorem exit1_src : W5 m ρ c (Proc.devRef .tc main_v3) = Cert.ReferenceIdeal.Read.val_main_v3 (F := Ideal) (m ((c : Thread nD τ).loc main_arg1)) :=
  (W5_of_ne m ρ c main_v3 (by decide)).trans (entry1_src m ρ c)
theorem exit1_dst : W5 m ρ c (Proc.devRef .tc main_v6) = Cert.ReferenceIdeal.Read.val_main_v6 (F := Ideal) (m ((c : Thread nD τ).loc main_arg1)) :=
  (W5_of_ne m ρ c main_v6 (by decide)).trans (entry1_dst m ρ c)
theorem exit1_norm : W5 m ρ c (Proc.devRef .tc main_v28) = Cert.ReferenceIdeal.Read.val_main_v28 (F := Ideal) (m ((c : Thread nD τ).loc main_arg1)) :=
  (W5_of_ne m ρ c main_v28 (by decide)).trans (entry1_norm m ρ c)
theorem exit1_arg2 : W5 m ρ c (Proc.devRef .tc main_arg2) = m ((c : Thread nD τ).loc main_arg2) :=
  (W5_of_ne m ρ c main_arg2 (by decide)).trans (entry1_arg2 m ρ c)
theorem exit1_arg4 : W5 m ρ c (Proc.devRef .tc main_arg4) = m ((c : Thread nD τ).loc main_arg4) :=
  (W5_of_ne m ρ c main_arg4 (by decide)).trans (entry1_arg4 m ρ c)
theorem exit1_arg5 : W5 m ρ c (Proc.devRef .tc main_arg5) = m ((c : Thread nD τ).loc main_arg5) :=
  (W5_of_ne m ρ c main_arg5 (by decide)).trans (entry1_arg5 m ρ c)
theorem exit1_arg6 : W5 m ρ c (Proc.devRef .tc main_arg6) = m ((c : Thread nD τ).loc main_arg6) :=
  (W5_of_ne m ρ c main_arg6 (by decide)).trans (entry1_arg6 m ρ c)
theorem exit1_arg7 : W5 m ρ c (Proc.devRef .tc main_arg7) = m ((c : Thread nD τ).loc main_arg7) :=
  (W5_of_ne m ρ c main_arg7 (by decide)).trans (entry1_arg7 m ρ c)
theorem exit1_arg8 : W5 m ρ c (Proc.devRef .tc main_arg8) = m ((c : Thread nD τ).loc main_arg8) :=
  (W5_of_ne m ρ c main_arg8 (by decide)).trans (entry1_arg8 m ρ c)

/-- The second region's features, from the launch memory. -/
theorem entry2_features : W9 m ρ c (Proc.devRef .tc main_v51) = padRows (Cert.ReferenceIdeal.Layers.convG (F := Ideal) (realRows (rowsTimes (padFeatures (m ((c : Thread nD τ).loc main_arg0))) (padWeights (m ((c : Thread nD τ).loc main_arg3))))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg4))) :=
  (entry2_features_of_exit1 m ρ c).trans (by
    rw [exit1_product, exit1_src, exit1_dst, exit1_norm, exit1_arg4, tailK_eq])

/-! ## What the second region leaves -/

theorem exit2_product : W10 m ρ c (Proc.devRef .tc main_v52) = rowsTimes (padRows (Cert.ReferenceIdeal.Layers.convG (F := Ideal) (realRows (rowsTimes (padFeatures (m ((c : Thread nD τ).loc main_arg0))) (padWeights (m ((c : Thread nD τ).loc main_arg3))))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg4)))) (m ((c : Thread nD τ).loc main_arg5)) :=
  ((W10_arr m ρ c 2).trans (product2 (V9 m ρ) c)).trans
    (congrArg₂ rowsTimes (entry2_features m ρ c) ((keep2_arg5 m ρ c).trans (exit1_arg5 m ρ c)))

/-- The edge lists, the normalisation and the arguments at the second region's exit. -/
theorem exit2_src : W10 m ρ c (Proc.devRef .tc main_v3) = Cert.ReferenceIdeal.Read.val_main_v3 (F := Ideal) (m ((c : Thread nD τ).loc main_arg1)) :=
  (W10_of_ne m ρ c main_v3 (by decide)).trans ((keep2_src m ρ c).trans (exit1_src m ρ c))
theorem exit2_dst : W10 m ρ c (Proc.devRef .tc main_v6) = Cert.ReferenceIdeal.Read.val_main_v6 (F := Ideal) (m ((c : Thread nD τ).loc main_arg1)) :=
  (W10_of_ne m ρ c main_v6 (by decide)).trans ((keep2_dst m ρ c).trans (exit1_dst m ρ c))
theorem exit2_norm : W10 m ρ c (Proc.devRef .tc main_v28) = Cert.ReferenceIdeal.Read.val_main_v28 (F := Ideal) (m ((c : Thread nD τ).loc main_arg1)) :=
  (W10_of_ne m ρ c main_v28 (by decide)).trans ((keep2_norm m ρ c).trans (exit1_norm m ρ c))
theorem exit2_arg2 : W10 m ρ c (Proc.devRef .tc main_arg2) = m ((c : Thread nD τ).loc main_arg2) :=
  (W10_of_ne m ρ c main_arg2 (by decide)).trans ((keep2_arg2 m ρ c).trans (exit1_arg2 m ρ c))
theorem exit2_arg6 : W10 m ρ c (Proc.devRef .tc main_arg6) = m ((c : Thread nD τ).loc main_arg6) :=
  (W10_of_ne m ρ c main_arg6 (by decide)).trans ((keep2_arg6 m ρ c).trans (exit1_arg6 m ρ c))
theorem exit2_arg7 : W10 m ρ c (Proc.devRef .tc main_arg7) = m ((c : Thread nD τ).loc main_arg7) :=
  (W10_of_ne m ρ c main_arg7 (by decide)).trans ((keep2_arg7 m ρ c).trans (exit1_arg7 m ρ c))
theorem exit2_arg8 : W10 m ρ c (Proc.devRef .tc main_arg8) = m ((c : Thread nD τ).loc main_arg8) :=
  (W10_of_ne m ρ c main_arg8 (by decide)).trans ((keep2_arg8 m ρ c).trans (exit1_arg8 m ρ c))

/-! ## At the return -/

/-- The arguments the head reads are not written by the operations before it. -/
local macro "read_before_head" : tactic => `(tactic| (
  show StableHlo.after hostOps2_1 (StableHlo.after hostOps2 (W10 _ _ _)) _ = _
  after_results_simp <;> rfl))
theorem keep3_arg2 : W12 m ρ c (Proc.devRef .tc main_arg2) = W10 m ρ c (Proc.devRef .tc main_arg2) := by read_before_head
theorem keep3_arg7 : W12 m ρ c (Proc.devRef .tc main_arg7) = W10 m ρ c (Proc.devRef .tc main_arg7) := by read_before_head
theorem keep3_arg8 : W12 m ρ c (Proc.devRef .tc main_arg8) = W10 m ρ c (Proc.devRef .tc main_arg8) := by read_before_head

/-- The result: the second region's output through the tail and the pooling head — over the second region's exit contents. -/
theorem result_of_exit2 : W13 m ρ c (Proc.devRef .tc main_v87)
    = headK (F := Ideal) (tailK (F := Ideal) (W10 m ρ c (Proc.devRef .tc main_v52)) (W10 m ρ c (Proc.devRef .tc main_v3))
        (W10 m ρ c (Proc.devRef .tc main_v6)) (W10 m ρ c (Proc.devRef .tc main_v28)) (W10 m ρ c (Proc.devRef .tc main_arg6)))
      (W10 m ρ c (Proc.devRef .tc main_arg2)) (W10 m ρ c (Proc.devRef .tc main_arg7)) (W10 m ρ c (Proc.devRef .tc main_arg8)) :=
  (stretch_head (W12 m ρ c)).trans (headK_congr
    ((stretch_relu2 (W11 m ρ c)).trans (congrArg (reluK (F := Ideal)) (stretch_preAct2 (W10 m ρ c))))
    (keep3_arg2 m ρ c) (keep3_arg7 m ρ c) (keep3_arg8 m ρ c))

/-- The result, from the launch memory: two padded products, each through the tail, then the head. -/
theorem result : W13 m ρ c (Proc.devRef .tc main_v87)
    = Cert.ReferenceIdeal.Layers.headG (F := Ideal) (Cert.ReferenceIdeal.Layers.convG (F := Ideal) (realRows (rowsTimes (padRows (Cert.ReferenceIdeal.Layers.convG (F := Ideal) (realRows (rowsTimes (padFeatures (m ((c : Thread nD τ).loc main_arg0))) (padWeights (m ((c : Thread nD τ).loc main_arg3))))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg4)))) (m ((c : Thread nD τ).loc main_arg5)))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg6))) (m ((c : Thread nD τ).loc main_arg2)) (m ((c : Thread nD τ).loc main_arg7)) (m ((c : Thread nD τ).loc main_arg8)) :=
  (result_of_exit2 m ρ c).trans (by
    rw [exit2_product, exit2_src, exit2_dst, exit2_norm, exit2_arg6, exit2_arg2, exit2_arg7, exit2_arg8, tailK_eq, headK_eq])

end Cert.KernelIdeal.KernelValue

end
-- ==== Proof.PaddedProduct.lean ====
/-
  The kernel's padded products against the reference's dot products, over the extended reals.

  First layer. The kernel pads the node features with 64 zero columns and the first weight matrix with 64 zero rows, takes
  the whole product over 128 channels, and keeps the real nodes' rows. At a real node's row r and a column q the sum over
  k < 128 splits at 64: below it the two entries are the features' and the weights' own, x[r, k] * w[k, q]; from 64 on both
  are the padding value zero, and 0 * 0 = 0. So the kept rows are the reference's dot product of the features with the
  weights over 64 channels.

  Second layer. The kernel pads the first layer's output with zero rows only; a real node's row of the padded array is the
  node's own row, so the kept rows are the reference's dot product with the second weight matrix, term by term.

  Neither needs the inputs to be finite: no sum is regrouped across an infinite term.
-/
import proofs.«408486_j50087908606622_3_alg».proof.Proof.WholeProduct
import proofs.«408486_j50087908606622_3_alg».proof.Proof.Layout
import proofs.«408486_j50087908606622_3_alg».proof.Proof.Gen.ReferenceIdeal.Read
import Idealize.ShloMosaic.Lib.KernelVsHost
import Idealize.ShloMosaic.Lib.Pipeline.Value
import Idealize.ShloMosaic.Lib.ValueIdx
import Idealize.ShloMosaic.PureOps.Ideal.Laws

noncomputable section

namespace Cert.KernelIdeal.PaddedProduct

open Cert.KernelIdeal Cert.KernelIdeal.Gen Cert.KernelIdeal.WholeProduct Cert.KernelIdeal.Layout
open Idealize.ShloMosaic Idealize.SL.Sem
open Cert.ReferenceIdeal.Read (lidx_main_v29 ridx_main_v29 lidx_main_v47 ridx_main_v47)

/-- A real node's entry, as an entry of a padded array of 50176 rows. -/
abbrev up (i : S50000x128.Idx) : S50176x128.Idx := fun a => match a with
  | ⟨0, _⟩ => ⟨(i 0).val, by show (i 0).val < 50176; have := ValueIdx.idx2_lt0 i; omega⟩
  | ⟨1, _⟩ => ⟨(i 1).val, ValueIdx.idx2_lt1 i⟩

/-- Keeping the real rows reads the padded array at the same row and column. -/
theorem realRows_apply (Y : S50176x128.Idx → EReal) (i : S50000x128.Idx) : realRows Y i = Y (up i) := by
  unfold realRows
  refine extractStridedSlice_apply _ Y _ i (up i) fun a => ?_
  match a with
  | ⟨0, _⟩ => show (i 0).val = 0 + (i 0).val; omega
  | ⟨1, _⟩ => show (i 1).val = 0 + (i 1).val; omega

/-! ## The first layer -/

/-- Below channel 64 a padded feature entry is the features' own. -/
theorem padFeatures_inside (X : S50000x64.Idx → EReal) (i : S50000x128.Idx) (k : Fin 64) :
    padFeatures X (rowAt (up i) (Fin.castAdd 64 k)) = X (lidx_main_v29 i k) := by
  unfold padFeatures
  refine pad_apply_of_inside _ _ _ X _ _ _ _ (lidx_main_v29 i k) fun a => ?_
  match a with
  | ⟨0, _⟩ => show (i 0).val = 0 + (i 0).val * (0 + 1); omega
  | ⟨1, _⟩ => show k.val = 0 + k.val * (0 + 1); omega

/-- From channel 64 on it is the padding value, zero. -/
theorem padFeatures_outside (X : S50000x64.Idx → EReal) (i : S50000x128.Idx) (k : Fin 64) :
    padFeatures X (rowAt (up i) (Fin.natAdd 64 k)) = 0 := by
  unfold padFeatures
  refine (pad_apply_of_not_inside _ _ _ X _ _ _ _ (1 : Fin 2) ?_).trans (zeroPad_apply _)
  show ¬(0 ≤ 64 + k.val ∧ (64 + k.val - 0) % (0 + 1) = 0 ∧ (64 + k.val - 0) / (0 + 1) < 64)
  omega

/-- Below row 64 a padded weight entry is the weights' own. -/
theorem padWeights_inside (W : S64x128.Idx → EReal) (i : S50000x128.Idx) (k : Fin 64) :
    padWeights W (colAt (up i) (Fin.castAdd 64 k)) = W (ridx_main_v29 i k) := by
  unfold padWeights
  refine pad_apply_of_inside _ _ _ W _ _ _ _ (ridx_main_v29 i k) fun a => ?_
  match a with
  | ⟨0, _⟩ => show k.val = 0 + k.val * (0 + 1); omega
  | ⟨1, _⟩ => show (i 1).val = 0 + (i 1).val * (0 + 1); omega

/-- From row 64 on it is zero. -/
theorem padWeights_outside (W : S64x128.Idx → EReal) (i : S50000x128.Idx) (k : Fin 64) :
    padWeights W (colAt (up i) (Fin.natAdd 64 k)) = 0 := by
  unfold padWeights
  refine (pad_apply_of_not_inside _ _ _ W _ _ _ _ (0 : Fin 2) ?_).trans (zeroPad_apply _)
  show ¬(0 ≤ 64 + k.val ∧ (64 + k.val - 0) % (0 + 1) = 0 ∧ (64 + k.val - 0) / (0 + 1) < 64)
  omega

/-- The real rows of the product of the padded features with the padded weights are the reference's first dot product. -/
theorem first_product (X : S50000x64.Idx → EReal) (W : S64x128.Idx → EReal) :
    realRows (rowsTimes (padFeatures X) (padWeights W)) = Cert.ReferenceIdeal.Read.val_main_v29 (F := Ideal) X W := by
  funext i
  rw [realRows_apply, rowsTimes_apply, Cert.ReferenceIdeal.Read.val_main_v29_apply]
  refine (Fin.sum_univ_add (a := 64) (b := 64) fun k : Fin (64 + 64) => padFeatures X (rowAt (up i) k) * padWeights W (colAt (up i) k)).trans ?_
  rw [Finset.sum_eq_zero (s := Finset.univ) (f := fun k : Fin 64 => padFeatures X (rowAt (up i) (Fin.natAdd 64 k)) * padWeights W (colAt (up i) (Fin.natAdd 64 k)))
    (fun k _ => by rw [padFeatures_outside, padWeights_outside, mul_zero]), add_zero]
  exact Finset.sum_congr rfl fun k _ => by rw [padFeatures_inside, padWeights_inside]

/-! ## The second layer -/

/-- A real node's row of the row-padded layer output is the node's own row. -/
theorem padRows_inside (H : S50000x128.Idx → EReal) (i : S50000x128.Idx) (k : Fin 128) :
    padRows H (rowAt (up i) k) = H (lidx_main_v47 i k) := by
  unfold padRows
  refine pad_apply_of_inside _ _ _ H _ _ _ _ (lidx_main_v47 i k) fun a => ?_
  match a with
  | ⟨0, _⟩ => show (i 0).val = 0 + (i 0).val * (0 + 1); omega
  | ⟨1, _⟩ => show k.val = 0 + k.val * (0 + 1); omega

/-- The reference's second dot product read at an entry: the plain sum over the 128 channels (at the extended reals), for
    any left operand. -/
theorem second_dot_apply (H : S50000x128.Idx → EReal) (W : S128x128.Idx → EReal) (i : S50000x128.Idx) :
    Host.dotGeneral (F := Ideal) (φ₁ := .f32) (φ₂ := .f32) Cert.ReferenceIdeal.dot_S50000x128_S128x128_S50000x128_1_0_0_1_n_n none H W i
      = ∑ k : Fin 128, H (lidx_main_v47 i k) * W (ridx_main_v47 i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- The real rows of the product of the row-padded layer output with the second weight matrix are the reference's second
    dot product. -/
theorem second_product (H : S50000x128.Idx → EReal) (W : S128x128.Idx → EReal) :
    realRows (rowsTimes (padRows H) W)
      = Host.dotGeneral (F := Ideal) (φ₁ := .f32) (φ₂ := .f32) Cert.ReferenceIdeal.dot_S50000x128_S128x128_S50000x128_1_0_0_1_n_n none H W := by
  funext i
  rw [realRows_apply, rowsTimes_apply, second_dot_apply]
  refine Finset.sum_congr rfl fun k _ => ?_
  rw [padRows_inside]
  exact congrArg (fun j => H (lidx_main_v47 i k) * W j) (funext fun a => by
    match a with
    | ⟨0, _⟩ => rfl
    | ⟨1, _⟩ => rfl)

end Cert.KernelIdeal.PaddedProduct

end
-- ==== Proof.lean ====
/-
  A two-layer graph convolution with mean pooling and a linear head, on 50000 nodes and 850000 edges (self-loops
  included). The kernel program and the reference differ only in the two per-node linear maps: the reference takes one dot
  product per layer, the kernel zero-pads its operands (the nodes to 50176 rows, the first layer's 64 input channels to 128),
  multiplies them block of 3584 rows by block on the matrix unit with bf16 operands and a bf16 result, and cuts the real
  nodes' rows back out. Over the extended reals a change of float format is the identity and both products are plain sums,
  and the padded channels contribute 0 * 0 = 0, so each padded product's real rows are the reference's dot product
  (PaddedProduct). Everything else — the edge lists, the symmetric normalisation, the gather / scale / scatter-add tail of a
  layer, the bias and the clamp at zero, the pooling and the head — is the same composition of operations in both programs
  (Layers), and the kernel program's result buffer is that composition of its two padded products (ResultRun for the run,
  RegionProduct for what each region leaves, KernelValue for the host operations around them).
  No step regroups a sum or cancels a factor, so the inputs' finiteness is never used.
-/
import proofs.«408486_j50087908606622_3_alg».proof.Defs
import proofs.«408486_j50087908606622_3_alg».proof.Proof.Gen.Kernel
import proofs.«408486_j50087908606622_3_alg».proof.Proof.Gen.Kernel.Skeleton
import proofs.«408486_j50087908606622_3_alg».proof.Proof.Gen.Kernel.Launch
import proofs.«408486_j50087908606622_3_alg».proof.Proof.Gen.Kernel.Points
import proofs.«408486_j50087908606622_3_alg».proof.Proof.Gen.Kernel.Frame
import proofs.«408486_j50087908606622_3_alg».proof.Proof.Gen.KernelIdeal
import proofs.«408486_j50087908606622_3_alg».proof.Proof.Gen.KernelIdeal.Skeleton
import proofs.«408486_j50087908606622_3_alg».proof.Proof.Gen.KernelIdeal.Launch
import proofs.«408486_j50087908606622_3_alg».proof.Proof.Gen.KernelIdeal.Points
import proofs.«408486_j50087908606622_3_alg».proof.Proof.Gen.KernelIdeal.Frame
import proofs.«408486_j50087908606622_3_alg».proof.Proof.Gen.ReferenceIdeal
import proofs.«408486_j50087908606622_3_alg».proof.Proof.Gen.ReferenceIdeal.Run
import proofs.«408486_j50087908606622_3_alg».proof.Proof.Gen.ReferenceIdeal.Read
import proofs.«408486_j50087908606622_3_alg».proof.Proof.Gen.Pre_finite_inputs
import proofs.«408486_j50087908606622_3_alg».proof.Proof.ResultRun
import proofs.«408486_j50087908606622_3_alg».proof.Proof.KernelValue
import proofs.«408486_j50087908606622_3_alg».proof.Proof.PaddedProduct
import proofs.«408486_j50087908606622_3_alg».proof.Proof.Layers
import Idealize.ShloMosaic.Adequacy
import Idealize.ShloMosaic.Init

noncomputable section

/-! ## The kernel program's result is the reference's function of the arguments -/

namespace Cert.KernelIdeal.Bridge

open Cert.KernelIdeal Cert.KernelIdeal.Gen Cert.KernelIdeal.KernelValue Cert.KernelIdeal.PaddedProduct Cert.KernelIdeal.Layout
open Cert.KernelIdeal.WholeProduct
open Idealize.ShloMosaic Idealize.ShloMosaic.TcCoe Idealize.SL.Sem

/-- The result buffer at the return, from the launch memory, is the reference's last stage applied to the arguments: the
    two padded products' real rows are the reference's two dot products, and what surrounds them is the reference's own
    stages. -/
theorem result_eq (m : (ℓ : Loc nD τ sig) → Buf (Elt Ideal) ℓ) (ρ : Dev nD → PrngReg) (c : Dev nD) :
    W13 m ρ c (Proc.devRef .tc main_v87)
      = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  -- the kernel program's result, from the launch memory
  (KernelValue.result m ρ c).trans <|
  -- the first padded product's real rows are the first dot product
  (congrArg (fun h => Cert.ReferenceIdeal.Layers.headG (F := Ideal) (Cert.ReferenceIdeal.Layers.convG (F := Ideal) (realRows (rowsTimes (padRows (Cert.ReferenceIdeal.Layers.convG (F := Ideal) h (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg4)))) (m ((c : Thread nD τ).loc main_arg5)))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg6))) (m ((c : Thread nD τ).loc main_arg2)) (m ((c : Thread nD τ).loc main_arg7)) (m ((c : Thread nD τ).loc main_arg8)))
    (first_product (m ((c : Thread nD τ).loc main_arg0)) (m ((c : Thread nD τ).loc main_arg3)))).trans <|
  -- the second padded product's real rows are the second dot product
  (congrArg (fun h => Cert.ReferenceIdeal.Layers.headG (F := Ideal) (Cert.ReferenceIdeal.Layers.convG (F := Ideal) h (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg6))) (m ((c : Thread nD τ).loc main_arg2)) (m ((c : Thread nD τ).loc main_arg7)) (m ((c : Thread nD τ).loc main_arg8)))
    (second_product (Cert.ReferenceIdeal.Layers.convG (F := Ideal) (Cert.ReferenceIdeal.Read.val_main_v29 (F := Ideal) (m ((c : Thread nD τ).loc main_arg0)) (m ((c : Thread nD τ).loc main_arg3))) (Cert.ReferenceIdeal.Read.val_main_v3 (F := Ideal) (m ((c : Thread nD τ).loc main_arg1))) (Cert.ReferenceIdeal.Read.val_main_v6 (F := Ideal) (m ((c : Thread nD τ).loc main_arg1))) (Cert.ReferenceIdeal.Read.val_main_v28 (F := Ideal) (m ((c : Thread nD τ).loc main_arg1))) (m ((c : Thread nD τ).loc main_arg4))) (m ((c : Thread nD τ).loc main_arg5)))).trans
  -- and what is left is the reference's own composition
  (Cert.ReferenceIdeal.Layers.whole_eq (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

end Cert.KernelIdeal.Bridge

/-! ## The claims -/

namespace Cert.Proof

open Idealize.ShloMosaic Idealize.SL.Sem

/-- The three programs run to the end without a fault and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, the idealized kernel program and the idealized reference end with the
    same result: the reference's last stage applied to the arguments. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v80_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
